-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4094x4096 : Shape := ⟨2, ![4094, 4096]⟩
abbrev S4094 : Shape := ⟨1, ![4094]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4094x4096 : S_.BroadcastsInDim S4094x4096 (![] : Fin 0 → Fin S4094x4096.rank)
  reducesTo_S4094x4096_S_d0_1 : S4094x4096.ReducesTo [0, 1] S_
  bcast_S_S4094 : S_.BroadcastsInDim S4094 (![] : Fin 0 → Fin S4094.rank)
  reducesTo_S4094_S_d0 : S4094.ReducesTo [0] S_

variable [Facts]

def fn {F : FTy → Type} [FloatOps F] (main_arg0 : FVec F S4096x4096 .f32) (main_arg1 : FVec F S4094x4096 .f32) (main_arg2 : FVec F S4094 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4094x4096 .f32 := Host.absf main_arg1
  let main_cst_0 : FVec F S_ .f32 := constant S_ .f32 0x7F800000#32
  let main_v5 : FVec F S4094x4096 .f32 := broadcastInDim S4094x4096 ![] bcast_S_S4094x4096 main_cst_0
  let main_v6 : IVec S4094x4096 1 := cmpf .olt main_v4 main_v5
  let main_c_1 : IVec S_ 1 := constantI S_ 1 1#1
  let main_v7 : IVec S_ 1 := (fun x v => Host.reduce IntOp.andi x v reducesTo_S4094x4096_S_d0_1 h_S_) main_v6 main_c_1
  let main_v8 : IVec S_ 1 := andi main_v3 main_v7
  let main_v9 : FVec F S4094 .f32 := Host.absf main_arg2
  let main_cst_2 : FVec F S_ .f32 := constant S_ .f32 0x7F800000#32
  let main_v10 : FVec F S4094 .f32 := broadcastInDim S4094 ![] bcast_S_S4094 main_cst_2
  let main_v11 : IVec S4094 1 := cmpf .olt main_v9 main_v10
  let main_c_3 : IVec S_ 1 := constantI S_ 1 1#1
  let main_v12 : IVec S_ 1 := (fun x v => Host.reduce IntOp.andi x v reducesTo_S4094_S_d0 h_S_) main_v11 main_c_3
  let main_v13 : IVec S_ 1 := andi main_v8 main_v12
  main_v13
-- ==== Kernel.lean ====
abbrev S4096x4096 : Shape := ⟨2, ![4096, 4096]⟩
abbrev S4094x4096 : Shape := ⟨2, ![4094, 4096]⟩
abbrev S4094 : Shape := ⟨1, ![4094]⟩
abbrev S_ : Shape := ⟨0, ![]⟩
abbrev S128x4096 : Shape := ⟨2, ![128, 4096]⟩
abbrev S3x4096 : Shape := ⟨2, ![3, 4096]⟩
abbrev S1 : Shape := ⟨1, ![1]⟩
abbrev S3 : Shape := ⟨1, ![3]⟩
abbrev S1x128 : Shape := ⟨2, ![1, 128]⟩
abbrev S2 : Shape := ⟨1, ![2]⟩
abbrev S4096x4094 : Shape := ⟨2, ![4096, 4094]⟩
abbrev S512x4096 : Shape := ⟨2, ![512, 4096]⟩
abbrev S512x4094 : Shape := ⟨2, ![512, 4094]⟩
abbrev S512x128 : Shape := ⟨2, ![512, 128]⟩
abbrev S512x3966 : Shape := ⟨2, ![512, 3966]⟩

abbrev nBuf : Space → Nat
  | .hbm => 22
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4094x4096, .f32⟩
  | .hbm, ⟨2, _⟩ => ⟨S4094, .f32⟩
  | .hbm, ⟨3, _⟩ => ⟨S_, .f32⟩
  | .hbm, ⟨4, _⟩ => ⟨S128x4096, .f32⟩
  | .hbm, ⟨5, _⟩ => ⟨S3x4096, .f32⟩
  | .hbm, ⟨6, _⟩ => ⟨S_, .i32⟩
  | .hbm, ⟨7, _⟩ => ⟨S1, .i32⟩
  | .hbm, ⟨8, _⟩ => ⟨S128x4096, .f32⟩
  | .hbm, ⟨9, _⟩ => ⟨S3, .f32⟩
  | .hbm, ⟨10, _⟩ => ⟨S_, .f32⟩
  | .hbm, ⟨11, _⟩ => ⟨S3, .f32⟩
  | .hbm, ⟨12, _⟩ => ⟨S3, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S4096x4094, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S1x128, .f32⟩
  | .local _ .vmem, ⟨4, _⟩ => ⟨S512x4094, .f32⟩
  | .local _ .vmem, ⟨5, _⟩ => ⟨S512x4094, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4094 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x4096 : S_.BroadcastsInDim S128x4096 (![] : Fin 0 → Fin S128x4096.rank)
  slices_S4094x4096_S3x4096_0_0 : S4094x4096.Slices ![0, 0] S3x4096
  bcast_S_S1 : S_.BroadcastsInDim S1 (![] : Fin 0 → Fin S1.rank)
  slices_S4094_S3_0 : S4094.Slices ![0] S3
  bcast_S_S3 : S_.BroadcastsInDim S3 (![] : Fin 0 → Fin S3.rank)
  bcast_S_S1x128 : S_.BroadcastsInDim S1x128 (![] : Fin 0 → Fin S1x128.rank)
  concatenates_S1_S1_S2_d0 : Shape.Concatenates [S1, S1] S2 0
  inb_S512x4096_S512x4096_0_0 : ∀ a, (![0, 0] : Fin 2 → Nat) a + S512x4096.size a ≤ S512x4096.size a
  h_S512x4096 : 0 < S512x4096.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x4094_S512x128_0_0 : ∀ a, (![0, 0] : Fin 2 → Nat) a + S512x128.size a ≤ S512x4094.size a
  h_S512x128 : 0 < S512x128.numel
  inb_S512x4094_S512x3966_0_128 : ∀ a, (![0, 128] : Fin 2 → Nat) a + S512x3966.size a ≤ S512x4094.size a
  h_S512x3966 : 0 < S512x3966.numel
  scatter_S128x4096_S1_S3x4096_01_n_0_0_wf : ScatterDims.WF S128x4096 S1 S3x4096 [0, 1] [] [0] 0
  scatter_S1x128_S2_S3_0_0_01_0_wf : ScatterDims.WF S1x128 S2 S3 [0] [0] [0, 1] 0
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4094.size a ≤ S4096x4094.size a
  hwx0_3 : ∀ i : grid0.Coords, EltTy.bits .f32 = 32 ∨ (Rect.block (s := S4096x4094) S512x4094.size (cc0_transform_3 i) (hinb0_3 i)).WholeWords (EltTy.packing .f32)

variable [Facts₀]

def scatter_S128x4096_S1_S3x4096_01_n_0_0 : ScatterDims S128x4096 S1 S3x4096 where
  updateWindowDims := [0, 1]
  insertedWindowDims := []
  scatterDimsToOperandDims := [0]
  indexVectorDim := 0
  wf := scatter_S128x4096_S1_S3x4096_01_n_0_0_wf
def scatter_S1x128_S2_S3_0_0_01_0 : ScatterDims S1x128 S2 S3 where
  updateWindowDims := [0]
  insertedWindowDims := [0]
  scatterDimsToOperandDims := [0, 1]
  indexVectorDim := 0
  wf := scatter_S1x128_S2_S3_0_0_01_0_wf
def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x4094.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4094x4096 : Shape := ⟨2, ![4094, 4096]⟩
abbrev S4094 : Shape := ⟨1, ![4094]⟩
abbrev S3x4096 : Shape := ⟨2, ![3, 4096]⟩
abbrev S4096x3 : Shape := ⟨2, ![4096, 3]⟩
abbrev S3 : Shape := ⟨1, ![3]⟩
abbrev S_ : Shape := ⟨0, ![]⟩
abbrev S1x3 : Shape := ⟨2, ![1, 3]⟩
abbrev S4096x4094 : Shape := ⟨2, ![4096, 4094]⟩
abbrev S1 : Shape := ⟨1, ![1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4094x4096, .f32⟩
  | .hbm, ⟨2, _⟩ => ⟨S4094, .f32⟩
  | .hbm, ⟨3, _⟩ => ⟨S3x4096, .f32⟩
  | .hbm, ⟨4, _⟩ => ⟨S4096x3, .f32⟩
  | .hbm, ⟨5, _⟩ => ⟨S4096x3, .f32⟩
  | .hbm, ⟨6, _⟩ => ⟨S3, .f32⟩
  | .hbm, ⟨7, _⟩ => ⟨S_, .f32⟩
  | .hbm, ⟨8, _⟩ => ⟨S3, .f32⟩
  | .hbm, ⟨9, _⟩ => ⟨S3, .f32⟩
  | .hbm, ⟨10, _⟩ => ⟨S1x3, .f32⟩
  | .hbm, ⟨11, _⟩ => ⟨S4096x3, .f32⟩
  | .hbm, ⟨12, _⟩ => ⟨S4096x3, .f32⟩
  | .hbm, ⟨13, _⟩ => ⟨S_, .f32⟩
  | .hbm, ⟨14, _⟩ => ⟨S4096x4094, .f32⟩
  | .hbm, ⟨15, _⟩ => ⟨S_, .i32⟩
  | .hbm, ⟨16, _⟩ => ⟨S1, .i32⟩
  | .hbm, ⟨17, _⟩ => ⟨S4096x4094, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  slices_S4094x4096_S3x4096_0_0 : S4094x4096.Slices ![0, 0] S3x4096
  transposes_S3x4096_S4096x3_1_0 : S3x4096.Transposes [1, 0] S4096x3
  slices_S4094_S3_0 : S4094.Slices ![0] S3
  bcast_S_S3 : S_.BroadcastsInDim S3 (![] : Fin 0 → Fin S3.rank)
  bcast_S3_S1x3_1 : S3.BroadcastsInDim S1x3 (![1] : Fin 1 → Fin S1x3.rank)
  bcast_S1x3_S4096x3_0_1 : S1x3.BroadcastsInDim S4096x3 (![0, 1] : Fin 2 → Fin S4096x3.rank)
  bcast_S_S4096x4094 : S_.BroadcastsInDim S4096x4094 (![] : Fin 0 → Fin S4096x4094.rank)
  bcast_S_S1 : S_.BroadcastsInDim S1 (![] : Fin 0 → Fin S1.rank)
  dot_S4096x4096_S4096x3_S4096x3_1_0_0_1_n_n_wf : DotDims.WF S4096x4096 S4096x3 S4096x3 [1] [0] [0] [1] [] []
  scatter_S4096x4094_S1_S4096x3_01_n_1_0_wf : ScatterDims.WF S4096x4094 S1 S4096x3 [0, 1] [] [1] 0

variable [Facts₀]

def dot_S4096x4096_S4096x3_S4096x3_1_0_0_1_n_n : DotDims S4096x4096 S4096x3 S4096x3 where
  lhsContracting := [1]
  rhsContracting := [0]
  lhsNonContracting := [0]
  rhsNonContracting := [1]
  lhsBatch := []
  rhsBatch := []
  wf := dot_S4096x4096_S4096x3_S4096x3_1_0_0_1_n_n_wf
def scatter_S4096x4094_S1_S4096x3_01_n_1_0 : ScatterDims S4096x4094 S1 S4096x3 where
  updateWindowDims := [0, 1]
  insertedWindowDims := []
  scatterDimsToOperandDims := [1]
  indexVectorDim := 0
  wf := scatter_S4096x4094_S1_S4096x3_01_n_1_0_wf

class Facts : Prop extends Facts₀ where

variable [Facts]
-- ==== Proof.LibHostScatterSet.lean ====
/-
  The host's overwriting scatter of one WINDOW placed at the origin, read at an index.

  `x.at[:E].set(upd)` prints as a scatter whose body returns the update, with a single start
  index (the word 0) and every axis of the update a window axis: update element u lands on the
  operand's element with the same coordinates, and the elements of the operand no update lands
  on are kept. The host scatter is a left fold over all update elements in row-major order; two
  facts about that fold carry the reading — an element no update lands on is never touched, and
  an element on which updates of one common value land ends at that value — and then the landing
  place of each update element is computed from the dimension numbers. Stated for any element
  type, any dimension-numbers record whose fields are this scatter's, at rank 1 and rank 2.
-/
import Idealize.ShloMosaic.PureOps
import Idealize.ShloMosaic.Lib.ValueIdx

open Idealize.ShloMosaic Idealize.ShloMosaic.ValueIdx

namespace Cert.Lib

/-! ## The fold -/

section Fold
variable {N : Nat} {ι α : Type} (g : Fin N → Option ι) (v : Fin N → α)
  (step : (ι → α) → Fin N → (ι → α)) (i : ι)

/-- A position no listed update lands on keeps its value through the fold. -/
theorem foldl_set_miss (hmiss : ∀ r n, g n ≠ some i → step r n i = r i) :
    ∀ (l : List (Fin N)) (r : ι → α), (∀ n ∈ l, g n ≠ some i) → l.foldl step r i = r i
  | [], _, _ => rfl
  | a :: t, r, h => by
    rw [List.foldl_cons, foldl_set_miss hmiss t (step r a) (fun n hn => h n (List.mem_cons_of_mem _ hn))]
    exact hmiss r a (h a List.mem_cons_self)

/-- A position on which some listed update lands, all the updates landing there carrying one value,
    ends at that value. -/
theorem foldl_set_hit (c : α) (hmiss : ∀ r n, g n ≠ some i → step r n i = r i)
    (hhit : ∀ r n, g n = some i → step r n i = v n) :
    ∀ (l : List (Fin N)) (r : ι → α), (∃ n ∈ l, g n = some i) → (∀ n ∈ l, g n = some i → v n = c) →
      l.foldl step r i = c
  | [], _, ⟨_, hn, _⟩, _ => absurd hn List.not_mem_nil
  | a :: t, r, hex, hall => by
    rw [List.foldl_cons]
    by_cases ht : ∃ n ∈ t, g n = some i
    · exact foldl_set_hit c hmiss hhit t (step r a) ht (fun n hn => hall n (List.mem_cons_of_mem _ hn))
    · have hnone : ∀ n ∈ t, g n ≠ some i := fun n hn hg => ht ⟨n, hn, hg⟩
      rw [foldl_set_miss g step i hmiss t _ hnone]
      obtain ⟨n, hn, hg⟩ := hex
      rcases List.mem_cons.1 hn with e | hn'
      · subst e
        rw [hhit r n hg]
        exact hall n List.mem_cons_self hg
      · exact absurd ⟨n, hn', hg⟩ ht

end Fold

/-! ## The overwriting scatter -/

section Set
variable {s si u : Shape} {w : Nat} {α : Type} (d : ScatterDims s si u) (x : s.Idx → α) (idx : IVec si w)
  (upd : u.Idx → α) (i : s.Idx)

/-- An element of the operand on which no update element lands is kept. -/
theorem scatter_set_of_miss (h : ∀ j, d.resultIdx? j idx ≠ some i) :
    Host.scatter d (fun _ b => b) x idx upd i = x i := by
  unfold Host.scatter
  refine foldl_set_miss (fun n => d.resultIdx? (u.rowMajor.symm n) idx) _ i ?_ _ x (fun n _ => h _)
  intro r n hn
  dsimp only at hn ⊢
  generalize d.resultIdx? (u.rowMajor.symm n) idx = o at hn
  cases o with
  | none => rfl
  | some i0 => exact if_neg (fun e => hn (congrArg some e.symm))

/-- An element of the operand on which update element j lands — every update element landing there
    carrying j's value — ends at that value. -/
theorem scatter_set_of_hit (j : u.Idx) (hj : d.resultIdx? j idx = some i)
    (hall : ∀ j', d.resultIdx? j' idx = some i → upd j' = upd j) :
    Host.scatter d (fun _ b => b) x idx upd i = upd j := by
  unfold Host.scatter
  refine foldl_set_hit (fun n => d.resultIdx? (u.rowMajor.symm n) idx) (fun n => upd (u.rowMajor.symm n)) _ i (upd j)
    ?_ ?_ _ x ⟨u.rowMajor j, List.mem_finRange _, ?_⟩ (fun n _ hg => hall _ hg)
  · intro r n hn
    dsimp only at hn ⊢
    generalize d.resultIdx? (u.rowMajor.symm n) idx = o at hn
    cases o with
    | none => rfl
    | some i0 => exact if_neg (fun e => hn (congrArg some e.symm))
  · intro r n hn
    dsimp only at hn ⊢
    generalize d.resultIdx? (u.rowMajor.symm n) idx = o at hn
    cases o with
    | none => exact absurd hn (by simp)
    | some i0 =>
      have e : i0 = i := Option.some.inj hn
      subst e
      exact if_pos rfl
  · show d.resultIdx? (u.rowMajor.symm (u.rowMajor j)) idx = some i
    rw [Equiv.symm_apply_apply]
    exact hj

end Set

/-! ## A window at the origin, rank 2 -/

/-- Start and window coordinate on each operand axis: both starts are 0 (the one start index is the
    word 0, and it names axis 0 only), the window coordinates are the update's own. -/
theorem start_window_origin2 {N E C w : Nat} (d : ScatterDims ⟨2, ![N, C]⟩ ⟨1, ![1]⟩ ⟨2, ![E, C]⟩)
    (huw : d.updateWindowDims = [0, 1]) (hiw : d.insertedWindowDims = [])
    (hsd : d.scatterDimsToOperandDims = [0]) (hivd : d.indexVectorDim = 0)
    (idx : IVec ⟨1, ![1]⟩ w) (hidx : ∀ k, (idx k).toInt = 0) (u : (⟨2, ![E, C]⟩ : Shape).Idx) :
    d.start u idx 0 = 0 ∧ d.start u idx 1 = 0 ∧ d.window u 0 = (u 0).val ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    exact hidx _
  · unfold ScatterDims.start
    rw [dif_neg (show (1 : Fin 2) ∉ ([0] : List (Fin 2)) by decide)]
  · unfold ScatterDims.window
    split
    · rfl
    · rename_i ha
      exact absurd (show (0 : Fin 2) ∈ (List.finRange 2).filter (fun a => a ∉ ([] : List (Fin 2))) by decide) ha
  · unfold ScatterDims.window
    split
    · rfl
    · rename_i ha
      exact absurd (show (1 : Fin 2) ∈ (List.finRange 2).filter (fun a => a ∉ ([] : List (Fin 2))) by decide) ha

/-- Update element u lands on the operand's element with u's coordinates. -/
theorem resultIdx?_origin2 {N E C w : Nat} (d : ScatterDims ⟨2, ![N, C]⟩ ⟨1, ![1]⟩ ⟨2, ![E, C]⟩)
    (huw : d.updateWindowDims = [0, 1]) (hiw : d.insertedWindowDims = [])
    (hsd : d.scatterDimsToOperandDims = [0]) (hivd : d.indexVectorDim = 0)
    (idx : IVec ⟨1, ![1]⟩ w) (hidx : ∀ k, (idx k).toInt = 0) (hEN : E ≤ N) (u : (⟨2, ![E, C]⟩ : Shape).Idx) :
    d.resultIdx? u idx = some (ix2 ⟨(u 0).val, lt_of_lt_of_le (idx2_lt0 u) hEN⟩ (u 1)) := by
  obtain ⟨h0, h1, hw0, hw1⟩ := start_window_origin2 d huw hiw hsd hivd idx hidx u
  have hlt0 : (u 0).val < E := idx2_lt0 u
  have hlt1 : (u 1).val < C := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [h0, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (u 0).val
    rw [h0, hw0]
    omega
  | ⟨1, _⟩ =>
    apply Fin.ext
    show (d.start u idx 1 + (d.window u 1 : ℤ)).toNat = (u 1).val
    rw [h1, hw1]
    omega

/-- THE WINDOW AT THE ORIGIN, rank 2: rows below E are the update's, the other rows the operand's. -/
theorem scatter_set_origin2 {N E C w : Nat} {α : Type} (d : ScatterDims ⟨2, ![N, C]⟩ ⟨1, ![1]⟩ ⟨2, ![E, C]⟩)
    (huw : d.updateWindowDims = [0, 1]) (hiw : d.insertedWindowDims = [])
    (hsd : d.scatterDimsToOperandDims = [0]) (hivd : d.indexVectorDim = 0)
    (x : (⟨2, ![N, C]⟩ : Shape).Idx → α) (idx : IVec ⟨1, ![1]⟩ w) (hidx : ∀ k, (idx k).toInt = 0)
    (upd : (⟨2, ![E, C]⟩ : Shape).Idx → α) (hEN : E ≤ N) (n : Fin N) (k : Fin C) :
    Host.scatter d (fun _ b => b) x idx upd (ix2 n k) =
      if h : n.val < E then upd (ix2 ⟨n.val, h⟩ k) else x (ix2 n k) := by
  by_cases h : n.val < E
  · rw [dif_pos h]
    refine scatter_set_of_hit d x idx upd (ix2 n k) (ix2 ⟨n.val, h⟩ k) ?_ ?_
    · exact (resultIdx?_origin2 d huw hiw hsd hivd idx hidx hEN _).trans rfl
    · intro j' hj'
      rw [resultIdx?_origin2 d huw hiw hsd hivd idx hidx hEN] at hj'
      have e := Option.some.inj hj'
      have e0 : (j' 0).val = n.val := congrArg Fin.val (congrFun e 0)
      have e1 : j' 1 = k := congrFun e 1
      rw [eq_ix2 j']
      congr 1
      exact congrArg₂ ix2 (Fin.ext e0) e1
  · rw [dif_neg h]
    refine scatter_set_of_miss d x idx upd (ix2 n k) ?_
    intro j hj
    rw [resultIdx?_origin2 d huw hiw hsd hivd idx hidx hEN] at hj
    have e := Option.some.inj hj
    have e0 : (j 0).val = n.val := congrArg Fin.val (congrFun e 0)
    exact h (e0 ▸ idx2_lt0 j)

/-! ## A window at the origin, rank 1 -/

/-- Start and window coordinate on the operand's one axis: the start is 0, the window coordinate
    the update's own. -/
theorem start_window_origin1 {N E w : Nat} (d : ScatterDims ⟨1, ![N]⟩ ⟨1, ![1]⟩ ⟨1, ![E]⟩)
    (huw : d.updateWindowDims = [0]) (hiw : d.insertedWindowDims = [])
    (hsd : d.scatterDimsToOperandDims = [0]) (hivd : d.indexVectorDim = 0)
    (idx : IVec ⟨1, ![1]⟩ w) (hidx : ∀ k, (idx k).toInt = 0) (u : (⟨1, ![E]⟩ : Shape).Idx) :
    d.start u idx 0 = 0 ∧ d.window u 0 = (u 0).val := by
  obtain ⟨uw, iw, sd, ivd, wf⟩ := d
  dsimp only at huw hiw hsd hivd
  subst huw hiw hsd hivd
  refine ⟨?_, ?_⟩
  · unfold ScatterDims.start
    rw [dif_pos (show (0 : Fin 1) ∈ ([0] : List (Fin 1)) by decide)]
    exact hidx _
  · unfold ScatterDims.window
    split
    · rfl
    · rename_i ha
      exact absurd (show (0 : Fin 1) ∈ (List.finRange 1).filter (fun a => a ∉ ([] : List (Fin 1))) by decide) ha

/-- Update element u lands on the operand's element with u's coordinate. -/
theorem resultIdx?_origin1 {N E w : Nat} (d : ScatterDims ⟨1, ![N]⟩ ⟨1, ![1]⟩ ⟨1, ![E]⟩)
    (huw : d.updateWindowDims = [0]) (hiw : d.insertedWindowDims = [])
    (hsd : d.scatterDimsToOperandDims = [0]) (hivd : d.indexVectorDim = 0)
    (idx : IVec ⟨1, ![1]⟩ w) (hidx : ∀ k, (idx k).toInt = 0) (hEN : E ≤ N) (u : (⟨1, ![E]⟩ : Shape).Idx) :
    d.resultIdx? u idx = some (ix1 ⟨(u 0).val, lt_of_lt_of_le (u 0).isLt hEN⟩) := by
  obtain ⟨h0, hw0⟩ := start_window_origin1 d huw hiw hsd hivd idx hidx u
  have hlt0 : (u 0).val < E := (u 0).isLt
  have hcond : ∀ a, 0 ≤ d.start u idx a + d.window u a ∧
      d.start u idx a + d.window u a < (⟨1, ![N]⟩ : Shape).size a := by
    intro a
    match a with
    | ⟨0, _⟩ =>
      show 0 ≤ d.start u idx 0 + (d.window u 0 : ℤ) ∧ d.start u idx 0 + (d.window u 0 : ℤ) < (N : ℤ)
      rw [h0, hw0]
      omega
  unfold ScatterDims.resultIdx?
  rw [dif_pos hcond]
  congr 1
  funext a
  match a with
  | ⟨0, _⟩ =>
    apply Fin.ext
    show (d.start u idx 0 + (d.window u 0 : ℤ)).toNat = (u 0).val
    rw [h0, hw0]
    omega

/-- THE WINDOW AT THE ORIGIN, rank 1: entries below E are the update's, the others the operand's. -/
theorem scatter_set_origin1 {N E w : Nat} {α : Type} (d : ScatterDims ⟨1, ![N]⟩ ⟨1, ![1]⟩ ⟨1, ![E]⟩)
    (huw : d.updateWindowDims = [0]) (hiw : d.insertedWindowDims = [])
    (hsd : d.scatterDimsToOperandDims = [0]) (hivd : d.indexVectorDim = 0)
    (x : (⟨1, ![N]⟩ : Shape).Idx → α) (idx : IVec ⟨1, ![1]⟩ w) (hidx : ∀ k, (idx k).toInt = 0)
    (upd : (⟨1, ![E]⟩ : Shape).Idx → α) (hEN : E ≤ N) (n : Fin N) :
    Host.scatter d (fun _ b => b) x idx upd (ix1 n) =
      if h : n.val < E then upd (ix1 ⟨n.val, h⟩) else x (ix1 n) := by
  by_cases h : n.val < E
  · rw [dif_pos h]
    refine scatter_set_of_hit d x idx upd (ix1 n) (ix1 ⟨n.val, h⟩) ?_ ?_
    · exact (resultIdx?_origin1 d huw hiw hsd hivd idx hidx hEN _).trans rfl
    · intro j' hj'
      rw [resultIdx?_origin1 d huw hiw hsd hivd idx hidx hEN] at hj'
      have e := Option.some.inj hj'
      have e0 : (j' 0).val = n.val := congrArg Fin.val (congrFun e 0)
      rw [eq_ix1 j']
      congr 1
      exact congrArg ix1 (Fin.ext e0)
  · rw [dif_neg h]
    refine scatter_set_of_miss d x idx upd (ix1 n) ?_
    intro j hj
    rw [resultIdx?_origin1 d huw hiw hsd hivd idx hidx hEN] at hj
    have e := Option.some.inj hj
    have e0 : (j 0).val = n.val := congrArg Fin.val (congrFun e 0)
    exact h (e0 ▸ (j 0).isLt)

end Cert.Lib
-- ==== Proof.LibHostScatterWin.lean ====
/-
  The host's overwriting scatter of one WINDOW placed at the origin, read at an index: two more
  placements of the window.

  * The window fills the leading COLUMNS of a rank-2 operand: `x.at[:, :E].set(upd)` prints as a
    scatter whose body returns the update, one start index (the word 0) that names axis 1, and both
    axes of the update window axes. Columns below E are the update's, the others the operand's.
  * A rank-1 update laid along the one ROW of a [1, C] operand: `x.at[0, :E].set(upd)` prints as a
    scatter with a start index of two words (0, 0) naming both axes, axis 0 of the operand an
    inserted window axis, the update's one axis the window axis along axis 1. Entries below E of
    the row are the update's, the others the operand's.

  Both rest on the two facts about the scatter's fold (an element no update lands on is kept; an
  element on which updates of one value land ends at that value) and compute the landing place of
  each update element from the dimension numbers.
-/
import proofs.«145445_j60662118089241_1_alg».proof.Proof.LibHostScatterSet

open Idealize.ShloMosaic Idealize.ShloMosaic.ValueIdx

namespace Cert.Lib

/-! ## A window at the origin filling the leading columns, rank 2 -/

/-- Start and window coordinate on each operand axis: both starts are 0 (the one start index is
    the word 0, and it names axis 1 only), the window coordinates are the update's own. -/
theorem start_window_cols2 {N C E w : Nat} (d : ScatterDims ⟨2, ![N, C]⟩ ⟨1, ![1]⟩ ⟨2, ![N, E]⟩)
    (huw : d.updateWindowDims = [0, 1]) (hiw : d.insertedWindowDims = [])
    (hsd : d.scatterDimsToOperandDims = [1]) (hivd : d.indexVectorDim = 0)
    (idx : IVec ⟨1, ![1]⟩ w) (hidx : ∀ k, (idx k).toInt = 0) (u : (⟨2, ![N, E]⟩ : Shape).Idx) :
    d.start u idx 0 = 0 ∧ d.start u idx 1 = 0 ∧ d.window u 0 = (u 0).val ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_neg (show (0 : Fin 2) ∉ ([1] : List (Fin 2)) by decide)]
  · unfold ScatterDims.start
    rw [dif_pos (show (1 : Fin 2) ∈ ([1] : List (Fin 2)) by decide)]
    exact hidx _
  · unfold ScatterDims.window
    split
    · rfl
    · rename_i ha
      exact absurd (show (0 : Fin 2) ∈ (List.finRange 2).filter (fun a => a ∉ ([] : List (Fin 2))) by decide) ha
  · unfold ScatterDims.window
    split
    · rfl
    · rename_i ha
      exact absurd (show (1 : Fin 2) ∈ (List.finRange 2).filter (fun a => a ∉ ([] : List (Fin 2))) by decide) ha

/-- Update element u lands on the operand's element with u's coordinates. -/
theorem resultIdx?_cols2 {N C E w : Nat} (d : ScatterDims ⟨2, ![N, C]⟩ ⟨1, ![1]⟩ ⟨2, ![N, E]⟩)
    (huw : d.updateWindowDims = [0, 1]) (hiw : d.insertedWindowDims = [])
    (hsd : d.scatterDimsToOperandDims = [1]) (hivd : d.indexVectorDim = 0)
    (idx : IVec ⟨1, ![1]⟩ w) (hidx : ∀ k, (idx k).toInt = 0) (hEC : E ≤ C) (u : (⟨2, ![N, E]⟩ : Shape).Idx) :
    d.resultIdx? u idx = some (ix2 (u 0) ⟨(u 1).val, lt_of_lt_of_le (idx2_lt1 u) hEC⟩) := by
  obtain ⟨h0, h1, hw0, hw1⟩ := start_window_cols2 d huw hiw hsd hivd idx hidx u
  have hlt0 : (u 0).val < N := idx2_lt0 u
  have hlt1 : (u 1).val < E := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [h0, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (u 0).val
    rw [h0, hw0]
    omega
  | ⟨1, _⟩ =>
    apply Fin.ext
    show (d.start u idx 1 + (d.window u 1 : ℤ)).toNat = (u 1).val
    rw [h1, hw1]
    omega

/-- THE WINDOW AT THE ORIGIN FILLING THE LEADING COLUMNS, rank 2: columns below E are the update's,
    the other columns the operand's. -/
theorem scatter_set_cols2 {N C E w : Nat} {α : Type} (d : ScatterDims ⟨2, ![N, C]⟩ ⟨1, ![1]⟩ ⟨2, ![N, E]⟩)
    (huw : d.updateWindowDims = [0, 1]) (hiw : d.insertedWindowDims = [])
    (hsd : d.scatterDimsToOperandDims = [1]) (hivd : d.indexVectorDim = 0)
    (x : (⟨2, ![N, C]⟩ : Shape).Idx → α) (idx : IVec ⟨1, ![1]⟩ w) (hidx : ∀ k, (idx k).toInt = 0)
    (upd : (⟨2, ![N, E]⟩ : Shape).Idx → α) (hEC : E ≤ C) (n : Fin N) (k : Fin C) :
    Host.scatter d (fun _ b => b) x idx upd (ix2 n k) =
      if h : k.val < E then upd (ix2 n ⟨k.val, h⟩) else x (ix2 n k) := by
  by_cases h : k.val < E
  · rw [dif_pos h]
    refine scatter_set_of_hit d x idx upd (ix2 n k) (ix2 n ⟨k.val, h⟩) ?_ ?_
    · exact (resultIdx?_cols2 d huw hiw hsd hivd idx hidx hEC _).trans rfl
    · intro j' hj'
      rw [resultIdx?_cols2 d huw hiw hsd hivd idx hidx hEC] at hj'
      have e := Option.some.inj hj'
      have e0 : j' 0 = n := congrFun e 0
      have e1 : (j' 1).val = k.val := congrArg Fin.val (congrFun e 1)
      rw [eq_ix2 j']
      congr 1
      exact congrArg₂ ix2 e0 (Fin.ext e1)
  · rw [dif_neg h]
    refine scatter_set_of_miss d x idx upd (ix2 n k) ?_
    intro j hj
    rw [resultIdx?_cols2 d huw hiw hsd hivd idx hidx hEC] at hj
    have e := Option.some.inj hj
    have e1 : (j 1).val = k.val := congrArg Fin.val (congrFun e 1)
    exact h (e1 ▸ idx2_lt1 j)

/-! ## A rank-1 update along the one row of a [1, C] operand -/

/-- Start and window coordinate on each operand axis: both starts are 0 (the start index is the two
    words 0, 0, one for each axis); axis 0 is an inserted window axis, so its window coordinate is
    0, and the window coordinate on axis 1 is the update's one coordinate. -/
theorem start_window_row {C E w : Nat} (d : ScatterDims ⟨2, ![1, C]⟩ ⟨1, ![2]⟩ ⟨1, ![E]⟩)
    (huw : d.updateWindowDims = [0]) (hiw : d.insertedWindowDims = [0])
    (hsd : d.scatterDimsToOperandDims = [0, 1]) (hivd : d.indexVectorDim = 0)
    (idx : IVec ⟨1, ![2]⟩ w) (hidx : ∀ k, (idx k).toInt = 0) (u : (⟨1, ![E]⟩ : Shape).Idx) :
    d.start u idx 0 = 0 ∧ d.start u idx 1 = 0 ∧ d.window u 0 = 0 ∧ d.window u 1 = (u 0).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0, 1] : List (Fin 2)) by decide)]
    exact hidx _
  · unfold ScatterDims.start
    rw [dif_pos (show (1 : Fin 2) ∈ ([0, 1] : List (Fin 2)) by decide)]
    exact hidx _
  · unfold ScatterDims.window
    split
    · rename_i ha
      exact absurd ha (show (0 : Fin 2) ∉ (List.finRange 2).filter (fun a => a ∉ ([0] : List (Fin 2))) by decide)
    · rfl
  · unfold ScatterDims.window
    split
    · rfl
    · rename_i ha
      exact absurd (show (1 : Fin 2) ∈ (List.finRange 2).filter (fun a => a ∉ ([0] : List (Fin 2))) by decide) ha

/-- Update element u lands on entry u of the row. -/
theorem resultIdx?_row {C E w : Nat} (d : ScatterDims ⟨2, ![1, C]⟩ ⟨1, ![2]⟩ ⟨1, ![E]⟩)
    (huw : d.updateWindowDims = [0]) (hiw : d.insertedWindowDims = [0])
    (hsd : d.scatterDimsToOperandDims = [0, 1]) (hivd : d.indexVectorDim = 0)
    (idx : IVec ⟨1, ![2]⟩ w) (hidx : ∀ k, (idx k).toInt = 0) (hEC : E ≤ C) (u : (⟨1, ![E]⟩ : Shape).Idx) :
    d.resultIdx? u idx = some (ix2 (0 : Fin 1) ⟨(u 0).val, lt_of_lt_of_le (u 0).isLt hEC⟩) := by
  obtain ⟨h0, h1, hw0, hw1⟩ := start_window_row d huw hiw hsd hivd idx hidx u
  have hlt0 : (u 0).val < E := (u 0).isLt
  have hcond : ∀ a, 0 ≤ d.start u idx a + d.window u a ∧
      d.start u idx a + d.window u a < (⟨2, ![1, C]⟩ : Shape).size a := by
    intro a
    match a with
    | ⟨0, _⟩ =>
      show 0 ≤ d.start u idx 0 + (d.window u 0 : ℤ) ∧ d.start u idx 0 + (d.window u 0 : ℤ) < ((1 : ℕ) : ℤ)
      rw [h0, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = 0
    rw [h0, hw0]
    omega
  | ⟨1, _⟩ =>
    apply Fin.ext
    show (d.start u idx 1 + (d.window u 1 : ℤ)).toNat = (u 0).val
    rw [h1, hw1]
    omega

/-- A RANK-1 UPDATE ALONG THE ROW of a [1, C] operand: entries below E are the update's, the others
    the operand's. -/
theorem scatter_set_row {C E w : Nat} {α : Type} (d : ScatterDims ⟨2, ![1, C]⟩ ⟨1, ![2]⟩ ⟨1, ![E]⟩)
    (huw : d.updateWindowDims = [0]) (hiw : d.insertedWindowDims = [0])
    (hsd : d.scatterDimsToOperandDims = [0, 1]) (hivd : d.indexVectorDim = 0)
    (x : (⟨2, ![1, C]⟩ : Shape).Idx → α) (idx : IVec ⟨1, ![2]⟩ w) (hidx : ∀ k, (idx k).toInt = 0)
    (upd : (⟨1, ![E]⟩ : Shape).Idx → α) (hEC : E ≤ C) (k : Fin C) :
    Host.scatter d (fun _ b => b) x idx upd (ix2 (0 : Fin 1) k) =
      if h : k.val < E then upd (ix1 ⟨k.val, h⟩) else x (ix2 (0 : Fin 1) k) := by
  by_cases h : k.val < E
  · rw [dif_pos h]
    refine scatter_set_of_hit d x idx upd (ix2 (0 : Fin 1) k) (ix1 ⟨k.val, h⟩) ?_ ?_
    · exact (resultIdx?_row d huw hiw hsd hivd idx hidx hEC _).trans rfl
    · intro j' hj'
      rw [resultIdx?_row d huw hiw hsd hivd idx hidx hEC] at hj'
      have e := Option.some.inj hj'
      have e1 : (j' 0).val = k.val := congrArg Fin.val (congrFun e 1)
      rw [eq_ix1 j']
      congr 1
      exact congrArg ix1 (Fin.ext e1)
  · rw [dif_neg h]
    refine scatter_set_of_miss d x idx upd (ix2 (0 : Fin 1) k) ?_
    intro j hj
    rw [resultIdx?_row d huw hiw hsd hivd idx hidx hEC] at hj
    have e := Option.some.inj hj
    have e1 : (j 0).val = k.val := congrArg Fin.val (congrFun e 1)
    exact h (e1 ▸ (j 0).isLt)

end Cert.Lib
-- ==== Proof.KernelHost.lean ====
/-
  What the kernel's host operations hand the region, read at an index.

  Before the region the host builds two small arrays. The padded weight, of shape [128, 4096]: a
  zero array whose leading three rows are overwritten with rows 0, 1, 2 of w; entry (j, k) is
  w (j, k) for j < 3 and zero otherwise. The padded bias, of shape [1, 128]: a zero row whose
  leading three entries are overwritten with 4096.0 · b j; entry (0, j) is that product for j < 3
  and zero otherwise.
-/
import proofs.«145445_j60662118089241_1_alg».proof.Proof.Gen.KernelIdeal.Frame
import proofs.«145445_j60662118089241_1_alg».proof.Proof.LibHostScatterWin
import Idealize.ShloMosaic.Lib.StableHlo.Run
import Idealize.ShloMosaic.Lib.Pipeline.Value
import Idealize.ShloMosaic.PureOps.Ideal.Laws

noncomputable section

open Idealize.ShloMosaic Idealize.ShloMosaic.TcCoe Idealize.ShloMosaic.ValueIdx Idealize.SL.Sem

namespace Cert.KernelIdeal.HostValue

open Cert.KernelIdeal Cert.KernelIdeal.Gen

variable (m : (ℓ : Loc nD τ sig) → Buf (Elt Ideal) ℓ)

/-- The one-word start index of the weight scatter: the word 0. -/
abbrev start1 : IVec S1 32 := broadcastInDim S1 ![] bcast_S_S1 (constantI S_ 32 0#32)

/-- The two-word start index of the bias scatter: the words 0, 0. -/
abbrev start2 : IVec S2 32 := concatenate S2 0 [⟨S1, start1⟩, ⟨S1, start1⟩] concatenates_S1_S1_S2_d0

theorem start1_zero (k : S1.Idx) : (start1 k).toInt = 0 := rfl

theorem start2_zero (k : S2.Idx) : (start2 k).toInt = 0 := by
  have e : start2 = constantI S2 32 0#32 :=
    IdealRules.zero_identity.concatenate_zero S2 0 [⟨S1, start1⟩, ⟨S1, start1⟩] concatenates_S1_S1_S2_d0 (by
      intro p hp
      simp only [List.mem_cons, List.not_mem_nil, or_false, or_self] at hp
      subst hp
      rfl)
  rw [e]
  rfl

/-- The padded weight as the region finds it: the operations' term of w. -/
theorem wpad_term (c : Dev nD) : (V m c main_v3 : S128x4096.Idx → EReal) =
    Host.scatter scatter_S128x4096_S1_S3x4096_01_n_0_0 (fun _ b => b)
      (broadcastInDim S128x4096 ![] bcast_S_S128x4096 (constant (F := Ideal) S_ .f32 0x00000000#32)) start1
      (extractStridedSlice S3x4096 ![0, 0] (m ((c : Thread nD τ).loc main_arg1)) slices_S4094x4096_S3x4096_0_0) := by
  dsimp only [Gen.V, Gen.hostOps0]
  after_results

/-- The padded bias as the region finds it: the operations' term of b. -/
theorem bpad_term (c : Dev nD) : (V m c main_v11 : S1x128.Idx → EReal) =
    Host.scatter scatter_S1x128_S2_S3_0_0_01_0 (fun _ b => b)
      (broadcastInDim S1x128 ![] bcast_S_S1x128 (constant (F := Ideal) S_ .f32 0x00000000#32)) start2
      (mulf (broadcastInDim S3 ![] bcast_S_S3 (constant (F := Ideal) S_ .f32 0x45800000#32))
        (extractStridedSlice S3 ![0] (m ((c : Thread nD τ).loc main_arg2)) slices_S4094_S3_0)) := by
  dsimp only [Gen.V, Gen.hostOps0]
  after_results

/-- The argument arrays at their literal types. -/
abbrev xarr (c : Dev nD) : S4096x4096.Idx → EReal := m ((c : Thread nD τ).loc main_arg0)
abbrev warr (c : Dev nD) : S4094x4096.Idx → EReal := m ((c : Thread nD τ).loc main_arg1)
abbrev barr (c : Dev nD) : S4094.Idx → EReal := m ((c : Thread nD τ).loc main_arg2)

/-- The slice of the leading three rows of w, at (j, k), is w (j, k). -/
theorem slice_rows (W : S4094x4096.Idx → EReal) (j : Fin 3) (k : Fin 4096) :
    extractStridedSlice S3x4096 ![0, 0] W slices_S4094x4096_S3x4096_0_0 (ix2 j k) = W (ix2 ⟨j.val, by omega⟩ k) :=
  extractStridedSlice_apply ![0, 0] W slices_S4094x4096_S3x4096_0_0 (ix2 j k) (ix2 ⟨j.val, by omega⟩ k) (fun a => match a with
    | ⟨0, _⟩ => by show j.val = 0 + j.val; omega
    | ⟨1, _⟩ => by show k.val = 0 + k.val; omega)

/-- The slice of the leading three entries of b, at j, is b j. -/
theorem slice_vec (B : S4094.Idx → EReal) (j : Fin 3) :
    extractStridedSlice S3 ![0] B slices_S4094_S3_0 (ix1 j) = B (ix1 ⟨j.val, by omega⟩) :=
  extractStridedSlice_apply ![0] B slices_S4094_S3_0 (ix1 j) (ix1 ⟨j.val, by omega⟩) (fun a => match a with
    | ⟨0, _⟩ => by show j.val = 0 + j.val; omega)

/-- The padded weight at (j, k): row j of w for j < 3, zero below. -/
theorem wpad_apply (c : Dev nD) (j : Fin 128) (k : Fin 4096) :
    (V m c main_v3 : S128x4096.Idx → EReal) (ix2 j k) =
      (if h : j.val < 3 then warr m c (ix2 ⟨j.val, by omega⟩ k) else 0 : EReal) := by
  rw [wpad_term, Cert.Lib.scatter_set_origin2 scatter_S128x4096_S1_S3x4096_01_n_0_0 rfl rfl rfl rfl _ _ start1_zero _ (by decide) j k]
  by_cases h : j.val < 3
  · rw [dif_pos h, dif_pos h]
    exact slice_rows (warr m c) ⟨j.val, h⟩ k
  · rw [dif_neg h, dif_neg h]
    exact Ideal.ofBits_zero_f32

/-- The padded bias at (0, j): 4096.0 · b j for j < 3, zero beyond. -/
theorem bpad_apply (c : Dev nD) (j : Fin 128) :
    (V m c main_v11 : S1x128.Idx → EReal) (ix2 (0 : Fin 1) j) =
      (if h : j.val < 3 then Ideal.ofBits .f32 0x45800000#32 * barr m c (ix1 ⟨j.val, by omega⟩) else 0 : EReal) := by
  rw [bpad_term, Cert.Lib.scatter_set_row scatter_S1x128_S2_S3_0_0_01_0 rfl rfl rfl rfl _ _ start2_zero _ (by decide) j]
  by_cases h : j.val < 3
  · rw [dif_pos h, dif_pos h]
    show Ideal.ofBits .f32 0x45800000#32 * extractStridedSlice S3 ![0] (barr m c) slices_S4094_S3_0 (ix1 ⟨j.val, h⟩) = _
    rw [slice_vec]
  · rw [dif_neg h, dif_neg h]
    exact Ideal.ofBits_zero_f32

end Cert.KernelIdeal.HostValue

end
-- ==== Proof.KernelBlock.lean ====
/-
  What the kernel's body leaves in its output block, read at an index.

  At each grid point the body holds a [512, 4096] block of x, the whole padded weight and the whole
  padded bias row. It writes the [512, 4094] output block in two stores: columns 0 to 127 take the
  matmul of the x block with the transposed padded weight (accumulated into zero) plus the bias row
  broadcast down the 512 rows; columns 128 to 4093 take zeros. Read at (p, q): for q < 128 the sum
  over k of xblock (p, k) · wpad (q, k), plus bpad (0, q); for q ≥ 128, zero.
-/
import proofs.«145445_j60662118089241_1_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.ShloMosaic.ValueIdx Idealize.SL.Sem

namespace Cert.KernelIdeal.BlockValue

open Cert.KernelIdeal Cert.KernelIdeal.Gen

theorem hz : (![0, 0] : Fin 2 → Nat) = fun _ => 0 := funext fun a => by fin_cases a <;> rfl

/-! ## Two stores read back: the later one where it wrote, the earlier one elsewhere -/

section Two
variable {Val : EltTy → Type} [∀ e, Nonempty (Val e)] {s : Shape} {e : EltTy}

/-- Where the later store wrote, the contents are its payload. -/
theorem canon_two_later (r1 r2 : Rect s) (w1 : r1.shape.Idx → Val e) (w2 : r2.shape.Idx → Val e) (x : r1.shape.Idx) :
    View.canon [(⟨r1, w1⟩ : View.Piece Val s e), ⟨r2, w2⟩] (r1.emb x) = w1 x :=
  View.canon_cons_emb r1 w1 _ x

/-- Where the earlier store wrote and the later one did not, the contents are the earlier payload. -/
theorem canon_two_earlier (r1 r2 : Rect s) (w1 : r1.shape.Idx → Val e) (w2 : r2.shape.Idx → Val e) (x : r2.shape.Idx)
    (hn : r2.emb x ∉ r1.set) :
    View.canon [(⟨r1, w1⟩ : View.Piece Val s e), ⟨r2, w2⟩] (r2.emb x) = w2 x := by
  rw [View.canon_cons_of_not_mem (⟨r1, w1⟩ : View.Piece Val s e) [⟨r2, w2⟩] hn]
  exact View.canon_cons_emb r2 w2 [] x

end Two

section Pieces
variable {F : FTy → Type} [FloatOps F]

/-- The two stores, later first: zeros over columns 128 onward, the matmul-plus-bias payload over
    columns 0 to 127, each a function of the three loaded blocks. -/
abbrev pieces (x0 : Vec F S512x4096 .f32) (x1 : Vec F S128x4096 .f32) (x2 : Vec F S1x128 .f32) :
    List (View.Piece (Elt F) S512x4094 .f32) :=
  [⟨Rect.unit ![0, 128] ![512, 3966] inb_S512x4094_S512x3966_0_128, k0_pay2 (F := F)⟩,
   ⟨Rect.unit ![0, 0] ![512, 128] inb_S512x4094_S512x128_0_0, k0_pay1 x0 x1 x2⟩]

/-- The body's output block is what those two stores leave. -/
theorem block_eq_canon (c : Dev nD) (i : grid0.Coords) (a1 : Memref sig .tc .vmem S512x4096 .f32) (h1 : a1.IsWhole)
    (a2 : Memref sig .tc .vmem S128x4096 .f32) (h2 : a2.IsWhole) (a3 : Memref sig .tc .vmem S1x128 .f32) (h3 : a3.IsWhole)
    (a4 : Memref sig .tc .vmem S512x4094 .f32) (h4 : a4.IsWhole)
    (x0 : Vec F S512x4096 .f32) (x1 : Vec F S128x4096 .f32) (x2 : Vec F S1x128 .f32) :
    out0_A_3 c i a1 h1 a2 h2 a3 h3 a4 h4 x0 x1 x2 = View.canon (pieces x0 x1 x2) := by
  unfold out0_A_3
  rw [View.read_writes_eq_canon _ _ _ (cover0_A_3 c i a1 h1 a2 h2 a3 h3 a4 h4 x0 x1 x2)]
  unfold kernelRun0_A
  dsimp only
  sl_unfold_words
  simp only [View.readAt_eq_ld, h1.read_unread, h2.read_unread, h3.read_unread,
    View.ld_unit_zero (S := S512x4096) hz, View.ld_unit_zero (S := S128x4096) hz, View.ld_unit_zero (S := S1x128) hz]

/-- Left of column 128 the block is the first store's payload. -/
theorem canon_left (pr : Vec F S512x3966 .f32) (pl : Vec F S512x128 .f32) (p : Fin 512) (q : Fin 4094) (h : q.val < 128) :
    View.canon ([⟨Rect.unit ![0, 128] ![512, 3966] inb_S512x4094_S512x3966_0_128, pr⟩,
      ⟨Rect.unit ![0, 0] ![512, 128] inb_S512x4094_S512x128_0_0, pl⟩] : List (View.Piece (Elt F) S512x4094 .f32)) (ix2 p q)
      = pl (ix2 p ⟨q.val, h⟩) := by
  have e : (ix2 p q : S512x4094.Idx) = (Rect.unit (s := S512x4094) ![0, 0] ![512, 128] inb_S512x4094_S512x128_0_0).emb (ix2 p ⟨q.val, h⟩) :=
    funext fun a => Fin.ext (by
      match a with
      | ⟨0, _⟩ => show p.val = 0 + 1 * p.val; omega
      | ⟨1, _⟩ => show q.val = 0 + 1 * q.val; omega)
  have hn : (Rect.unit (s := S512x4094) ![0, 0] ![512, 128] inb_S512x4094_S512x128_0_0).emb (ix2 p ⟨q.val, h⟩)
      ∉ (Rect.unit (s := S512x4094) ![0, 128] ![512, 3966] inb_S512x4094_S512x3966_0_128).set := by
    rw [Rect.mem_set_unit]
    intro hm
    have h1 : 128 ≤ 0 + 1 * q.val := (hm 1).1
    omega
  rw [e]
  exact canon_two_earlier (Rect.unit (s := S512x4094) ![0, 128] ![512, 3966] inb_S512x4094_S512x3966_0_128)
    (Rect.unit (s := S512x4094) ![0, 0] ![512, 128] inb_S512x4094_S512x128_0_0) pr pl (ix2 p ⟨q.val, h⟩) hn

/-- From column 128 on it is the second store's payload, 128 columns to the left. -/
theorem canon_right (pr : Vec F S512x3966 .f32) (pl : Vec F S512x128 .f32) (p : Fin 512) (q : Fin 4094) (h : ¬ q.val < 128) :
    View.canon ([⟨Rect.unit ![0, 128] ![512, 3966] inb_S512x4094_S512x3966_0_128, pr⟩,
      ⟨Rect.unit ![0, 0] ![512, 128] inb_S512x4094_S512x128_0_0, pl⟩] : List (View.Piece (Elt F) S512x4094 .f32)) (ix2 p q)
      = pr (ix2 p ⟨q.val - 128, by have := q.isLt; omega⟩) := by
  have e : (ix2 p q : S512x4094.Idx) = (Rect.unit (s := S512x4094) ![0, 128] ![512, 3966] inb_S512x4094_S512x3966_0_128).emb
      (ix2 p ⟨q.val - 128, by have := q.isLt; omega⟩) :=
    funext fun a => Fin.ext (by
      match a with
      | ⟨0, _⟩ => show p.val = 0 + 1 * p.val; omega
      | ⟨1, _⟩ => show q.val = 128 + 1 * (q.val - 128); omega)
  rw [e]
  exact canon_two_later (Rect.unit (s := S512x4094) ![0, 128] ![512, 3966] inb_S512x4094_S512x3966_0_128)
    (Rect.unit (s := S512x4094) ![0, 0] ![512, 128] inb_S512x4094_S512x128_0_0) pr pl _

end Pieces

/-! ## The payloads at an index, over the extended reals -/

/-- The contraction: the x block's axis 1 against the padded weight's axis 1. -/
abbrev dd := dot_S512x4096_S128x4096_S512x128_1_1_0_0_n_n

theorem lhs_dd_0 (i : S512x128.Idx) (q : dot_S512x4096_S128x4096_S512x128_1_1_0_0_n_n.contr.Idx) :
    (dot_S512x4096_S128x4096_S512x128_1_1_0_0_n_n.lhsIdx i q 0).val = (i 0).val := by
  unfold DotDims.lhsIdx
  rw [dif_neg (show ¬(0 : Fin S512x4096.rank) ∈ dot_S512x4096_S128x4096_S512x128_1_1_0_0_n_n.lhsBatch by decide), dif_pos (show (0 : Fin S512x4096.rank) ∈ dot_S512x4096_S128x4096_S512x128_1_1_0_0_n_n.lhsNonContracting by decide)]
  rfl
theorem lhs_dd_1 (i : S512x128.Idx) (q : dot_S512x4096_S128x4096_S512x128_1_1_0_0_n_n.contr.Idx) :
    (dot_S512x4096_S128x4096_S512x128_1_1_0_0_n_n.lhsIdx i q 1).val = (q ⟨0, by decide⟩).val :=
  dot_S512x4096_S128x4096_S512x128_1_1_0_0_n_n.lhsIdx_val_of_single rfl i q
theorem rhs_dd_0 (i : S512x128.Idx) (q : dot_S512x4096_S128x4096_S512x128_1_1_0_0_n_n.contr.Idx) :
    (dot_S512x4096_S128x4096_S512x128_1_1_0_0_n_n.rhsIdx i q 0).val = (i 1).val := by
  unfold DotDims.rhsIdx
  rw [dif_neg (show ¬(0 : Fin S128x4096.rank) ∈ dot_S512x4096_S128x4096_S512x128_1_1_0_0_n_n.rhsBatch by decide), dif_pos (show (0 : Fin S128x4096.rank) ∈ dot_S512x4096_S128x4096_S512x128_1_1_0_0_n_n.rhsNonContracting by decide)]
  rfl
theorem rhs_dd_1 (i : S512x128.Idx) (q : dot_S512x4096_S128x4096_S512x128_1_1_0_0_n_n.contr.Idx) :
    (dot_S512x4096_S128x4096_S512x128_1_1_0_0_n_n.rhsIdx i q 1).val = (q ⟨0, by decide⟩).val :=
  dot_S512x4096_S128x4096_S512x128_1_1_0_0_n_n.rhsIdx_val_of_single rfl i q

/-- The matmul into the zero accumulator, at (p, q): the sum over k of x0 (p, k) · x1 (q, k). -/
theorem matmul_at (x0 : FVec Ideal S512x4096 .f32) (x1 : FVec Ideal S128x4096 .f32) (p : Fin 512) (q : Fin 128) :
    matmul dot_S512x4096_S128x4096_S512x128_1_1_0_0_n_n none x0 x1 (constant S512x128 .f32 0x00000000#32) (ix2 p q)
      = ∑ k : Fin 4096, x0 (ix2 p k) * x1 (ix2 q k) := by
  simp only [matmul]
  rw [Ideal.matmul_constant_zero_apply, ← Equiv.sum_comp (ValueIdx.contrEquiv1 dot_S512x4096_S128x4096_S512x128_1_1_0_0_n_n 4096 rfl rfl).symm]
  refine Finset.sum_congr rfl fun k _ => ?_
  have hk := ValueIdx.contrEquiv1_symm_val dot_S512x4096_S128x4096_S512x128_1_1_0_0_n_n 4096 rfl rfl k
  have el : dot_S512x4096_S128x4096_S512x128_1_1_0_0_n_n.lhsIdx (ix2 p q) ((ValueIdx.contrEquiv1 dot_S512x4096_S128x4096_S512x128_1_1_0_0_n_n 4096 rfl rfl).symm k) = ix2 p k := funext fun a => Fin.ext (by
    match a with
    | ⟨0, _⟩ => exact lhs_dd_0 _ _
    | ⟨1, _⟩ => exact (lhs_dd_1 _ _).trans hk)
  have er : dot_S512x4096_S128x4096_S512x128_1_1_0_0_n_n.rhsIdx (ix2 p q) ((ValueIdx.contrEquiv1 dot_S512x4096_S128x4096_S512x128_1_1_0_0_n_n 4096 rfl rfl).symm k) = ix2 q k := funext fun a => Fin.ext (by
    match a with
    | ⟨0, _⟩ => exact rhs_dd_0 _ _
    | ⟨1, _⟩ => exact (rhs_dd_1 _ _).trans hk)
  rw [el, er]

/-- The bias row broadcast down the rows, at (p, q): the row's entry q. -/
theorem bias_at (x2 : FVec Ideal S1x128 .f32) (p : Fin 512) (q : Fin 128) :
    broadcastTo S512x128 x2 broadcasts_S1x128_S512x128 (ix2 p q) = x2 (ix2 (0 : Fin 1) q) :=
  broadcastTo_apply x2 broadcasts_S1x128_S512x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The first store's payload at (p, q). -/
theorem pay1_at (x0 : Vec Ideal S512x4096 .f32) (x1 : Vec Ideal S128x4096 .f32) (x2 : Vec Ideal S1x128 .f32)
    (p : Fin 512) (q : Fin 128) :
    k0_pay1 (F := Ideal) x0 x1 x2 (ix2 p q) = (∑ k : Fin 4096, x0 (ix2 p k) * x1 (ix2 q k)) + x2 (ix2 (0 : Fin 1) q) := by
  unfold k0_pay1
  rw [shapeCast_self, shapeCast_self, addf_apply, matmul_at, bias_at]

/-- The second store's payload is zero everywhere. -/
theorem pay2_at (y : S512x3966.Idx) : k0_pay2 (F := Ideal) y = 0 := by
  unfold k0_pay2
  exact Ideal.ofBits_zero_f32

/-- THE BLOCK at (p, q): the inner product of row p of the x block with row q of the padded weight
    plus entry q of the padded bias, left of column 128; zero from column 128 on. -/
theorem block_at (c : Dev nD) (i : grid0.Coords) (a1 : Memref sig .tc .vmem S512x4096 .f32) (h1 : a1.IsWhole)
    (a2 : Memref sig .tc .vmem S128x4096 .f32) (h2 : a2.IsWhole) (a3 : Memref sig .tc .vmem S1x128 .f32) (h3 : a3.IsWhole)
    (a4 : Memref sig .tc .vmem S512x4094 .f32) (h4 : a4.IsWhole)
    (x0 : Vec Ideal S512x4096 .f32) (x1 : Vec Ideal S128x4096 .f32) (x2 : Vec Ideal S1x128 .f32) (p : Fin 512) (q : Fin 4094) :
    out0_A_3 (F := Ideal) c i a1 h1 a2 h2 a3 h3 a4 h4 x0 x1 x2 (ix2 p q) =
      (if h : q.val < 128 then (∑ k : Fin 4096, x0 (ix2 p k) * x1 (ix2 (⟨q.val, h⟩ : Fin 128) k)) + x2 (ix2 (0 : Fin 1) (⟨q.val, h⟩ : Fin 128))
        else 0 : EReal) := by
  rw [block_eq_canon]
  unfold pieces
  by_cases h : q.val < 128
  · rw [dif_pos h]
    exact (canon_left (F := Ideal) (k0_pay2 (F := Ideal)) (k0_pay1 (F := Ideal) x0 x1 x2) p q h).trans (pay1_at x0 x1 x2 p ⟨q.val, h⟩)
  · rw [dif_neg h]
    exact (canon_right (F := Ideal) (k0_pay2 (F := Ideal)) (k0_pay1 (F := Ideal) x0 x1 x2) p q h).trans (pay2_at _)

end Cert.KernelIdeal.BlockValue

end
-- ==== Proof.Spec.lean ====
/-
  The specification: what both programs compute, as one function of the three argument arrays.

  With x of shape [4096, 4096], w of shape [4094, 4096] and b of shape [4094], the result has
  shape [4096, 4094]; in its first three columns, entry (r, j) is the inner product of row r of x
  with row j of w, plus 4096 times b j (the bias is added once for each of the 4096 columns of x);
  every other column is zero. Stated over the extended reals, with literal shapes.
-/
import Idealize.ShloMosaic.PureOps.Ideal
import Idealize.ShloMosaic.Lib.ValueIdx

noncomputable section

open Idealize.ShloMosaic Idealize.ShloMosaic.ValueIdx

namespace Cert.Spec

/-- Entry (r, j), j < 3, of the non-zero slab: the inner product of row r of x and row j of w, plus
    the bias b j scaled by the float 4096 (kept as its word: both programs write the same one). -/
def slab (x : (⟨2, ![4096, 4096]⟩ : Shape).Idx → EReal) (w : (⟨2, ![4094, 4096]⟩ : Shape).Idx → EReal)
    (b : (⟨1, ![4094]⟩ : Shape).Idx → EReal) (r : Fin 4096) (j : Fin 4094) : EReal :=
  (∑ k : Fin 4096, x (ix2 r k) * w (ix2 j k)) + Ideal.ofBits .f32 0x45800000#32 * b (ix1 j)

/-- The result array: the slab in columns 0, 1, 2 and zero in the other 4091 columns. -/
def G (x : (⟨2, ![4096, 4096]⟩ : Shape).Idx → EReal) (w : (⟨2, ![4094, 4096]⟩ : Shape).Idx → EReal)
    (b : (⟨1, ![4094]⟩ : Shape).Idx → EReal) : (⟨2, ![4096, 4094]⟩ : Shape).Idx → EReal :=
  fun i => if (i 1).val < 3 then slab x w b (i 0) (i 1) else 0

theorem G_head (x : (⟨2, ![4096, 4096]⟩ : Shape).Idx → EReal) (w : (⟨2, ![4094, 4096]⟩ : Shape).Idx → EReal)
    (b : (⟨1, ![4094]⟩ : Shape).Idx → EReal) (r : Fin 4096) (j : Fin 4094) (h : j.val < 3) :
    G x w b (ix2 r j) = slab x w b r j := if_pos h

theorem G_tail (x : (⟨2, ![4096, 4096]⟩ : Shape).Idx → EReal) (w : (⟨2, ![4094, 4096]⟩ : Shape).Idx → EReal)
    (b : (⟨1, ![4094]⟩ : Shape).Idx → EReal) (r : Fin 4096) (j : Fin 4094) (h : ¬ j.val < 3) :
    G x w b (ix2 r j) = 0 := if_neg h

end Cert.Spec

end
-- ==== Proof.KernelValue.lean ====
/-
  The kernel's result array is the specification.

  The grid has eight points; point t holds rows 512 t to 512 t + 511 of x, the whole padded weight
  and the whole padded bias row, and writes back rows 512 t to 512 t + 511 of the result. Row p of
  that block, at column q, is (for q < 128) the inner product of row 512 t + p of x with row q of the
  padded weight plus entry q of the padded bias, and zero for q ≥ 128. For q < 3 the padded weight's
  row q is row q of w and the padded bias entry is 4096 · b q: the specification's slab. For
  3 ≤ q < 128 the padded weight's row q and the padded bias entry are zero, so the inner product is a
  sum of products with zero, which is zero on the extended reals whatever the other factor, and the
  entry is 0 + 0 = 0: the specification's zero. The eight row blocks cover the array.
-/
import proofs.«145445_j60662118089241_1_alg».proof.Proof.Gen.KernelIdeal.Value
import proofs.«145445_j60662118089241_1_alg».proof.Proof.KernelHost
import proofs.«145445_j60662118089241_1_alg».proof.Proof.KernelBlock
import proofs.«145445_j60662118089241_1_alg».proof.Proof.Spec

noncomputable section

open Idealize.ShloMosaic Idealize.ShloMosaic.TcCoe Idealize.ShloMosaic.ValueIdx Idealize.SL.Sem
open Idealize.ShloMosaic.Pipeline (Dat)

namespace Cert.KernelIdeal.ArrValue

open Cert.KernelIdeal Cert.KernelIdeal.Gen Cert.KernelIdeal.HostValue Cert.KernelIdeal.BlockValue

variable (m : (ℓ : Loc nD τ sig) → Buf (Elt Ideal) ℓ) (ρ : Dev nD → PrngReg)

/-- The printed index maps over the grid: the x window and the result window move down their arrays
    one row block per point; the padded weight and the padded bias stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at a point, at their literal types. -/
abbrev xblk (c : Dev nD) (t : Fin cfg0.N) : Vec Ideal S512x4096 .f32 := iblk m c 0 t
abbrev wblk (c : Dev nD) (t : Fin cfg0.N) : Vec Ideal S128x4096 .f32 := iblk m c 1 t
abbrev bblk (c : Dev nD) (t : Fin cfg0.N) : Vec Ideal S1x128 .f32 := iblk m c 2 t

/-- The x block at point t is rows 512 t onward of x. -/
theorem xblk_at (c : Dev nD) (t : Fin cfg0.N) (p : Fin 512) (k : Fin 4096) (hr : 512 * t.val + p.val < 4096) :
    xblk m c t (ix2 p k) = xarr m c (ix2 ⟨512 * t.val + p.val, hr⟩ k) := by
  obtain ⟨e0, e1, -⟩ := idx_facts t
  show V m c main_arg0 (((cfg0.win 0).blk t).view.emb (ix2 p k)) = m ((c : Thread nD τ).loc main_arg0) _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 4096 + 1 * k.val = k.val; rw [e1]; omega

/-- The padded-weight block at every point is the whole padded weight. -/
theorem wblk_at (c : Dev nD) (t : Fin cfg0.N) (q : Fin 128) (k : Fin 4096) :
    wblk m c t (ix2 q k) = (V m c main_v3 : S128x4096.Idx → EReal) (ix2 q k) := by
  obtain ⟨-, -, e0, e1, -⟩ := idx_facts t
  show V m c main_v3 (((cfg0.win 1).blk t).view.emb (ix2 q k)) = V m c main_v3 _
  refine congrArg _ (funext fun a => Fin.ext ?_)
  match a with
  | ⟨0, _⟩ => show win0_1.index t (0 : Fin 2) * 128 + 1 * q.val = q.val; rw [e0]; omega
  | ⟨1, _⟩ => show win0_1.index t (1 : Fin 2) * 4096 + 1 * k.val = k.val; rw [e1]; omega

/-- The padded-bias block at every point is the whole padded bias row. -/
theorem bblk_at (c : Dev nD) (t : Fin cfg0.N) (q : Fin 128) :
    bblk m c t (ix2 (0 : Fin 1) q) = (V m c main_v11 : S1x128.Idx → EReal) (ix2 (0 : Fin 1) q) := by
  obtain ⟨-, -, -, -, e0, e1, -⟩ := idx_facts t
  show V m c main_v11 (((cfg0.win 2).blk t).view.emb (ix2 (0 : Fin 1) q)) = V m c main_v11 _
  refine congrArg _ (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

/-- The specification at the argument arrays as launched. -/
abbrev Garr (c : Dev nD) : S4096x4094.Idx → EReal := Cert.Spec.G (xarr m c) (warr m c) (barr m c)

/-- ROW p, COLUMN q OF THE BLOCK POINT t LEAVES is the specification at row 512 t + p, column q. -/
theorem point_eq (c : Dev nD) (t : Fin cfg0.N) (p : Fin 512) (q : Fin 4094) (hr : 512 * t.val + p.val < 4096) :
    out0_A_3 (F := Ideal) c (grid0.coords t) (ms0_0 t) (hs0_0 t) (ms0_1 t) (hs0_1 t) (ms0_2 t) (hs0_2 t) (ms0_3 t) (hs0_3 t)
        (xblk m c t) (wblk m c t) (bblk m c t) (ix2 p q)
      = Garr m c (ix2 ⟨512 * t.val + p.val, hr⟩ q) := by
  rw [block_at]
  unfold Garr
  by_cases h : q.val < 128
  · rw [dif_pos h, bblk_at, bpad_apply]
    by_cases h3 : q.val < 3
    · rw [dif_pos h3, Cert.Spec.G_head _ _ _ _ q h3]
      unfold Cert.Spec.slab
      congr 1
      refine Finset.sum_congr rfl fun k _ => ?_
      rw [xblk_at m c t p k hr, wblk_at, wpad_apply, dif_pos h3]
    · rw [dif_neg h3, Cert.Spec.G_tail _ _ _ _ q h3, add_zero]
      refine Finset.sum_eq_zero fun k _ => ?_
      rw [wblk_at, wpad_apply, dif_neg h3, mul_zero]
  · rw [dif_neg h, Cert.Spec.G_tail _ _ _ _ q (by omega)]

/-- WHAT POINT t WRITES BACK is block t of the specification. -/
theorem flushed_eq (c : Dev nD) (t : Fin cfg0.N) :
    (dats m 0 c).flushed 3 t = ((cfg0.win 3).blk t).view.read (Elt Ideal) (Garr m c) := by
  rw [Cert.KernelIdeal.Value.flushed3_A]
  funext j
  have hN : cfg0.N = 8 := N_0
  have ht : t.val < 8 := hN ▸ t.isLt
  have hp : (j 0).val < 512 := Nat.lt_of_lt_of_le (j 0).isLt (win0_3.xsize_le (grid0.coords t) 0)
  have hq : (j 1).val < 4094 := Nat.lt_of_lt_of_le (j 1).isLt (win0_3.xsize_le (grid0.coords t) 1)
  have hr : 512 * t.val + (j 0).val < 4096 := by omega
  obtain ⟨-, -, -, -, -, -, e0, e1⟩ := idx_facts t
  have ex : (cfg0.win 3).xinj (grid0.coords t) j = ix2 (⟨(j 0).val, hp⟩ : Fin 512) (⟨(j 1).val, hq⟩ : Fin 4094) :=
    funext fun a => Fin.ext (by match a with | ⟨0, _⟩ => rfl | ⟨1, _⟩ => rfl)
  have ee : ((cfg0.win 3).blk t).view.emb j = ix2 (⟨512 * t.val + (j 0).val, hr⟩ : Fin 4096) (⟨(j 1).val, hq⟩ : Fin 4094) :=
    funext fun a => Fin.ext (by
      match a with
      | ⟨0, _⟩ => show win0_3.index t (0 : Fin 2) * 512 + 1 * (j 0).val = 512 * t.val + (j 0).val; rw [e0]; omega
      | ⟨1, _⟩ => show win0_3.index t (1 : Fin 2) * 4094 + 1 * (j 1).val = (j 1).val; rw [e1]; omega)
  show out0_A_3 (F := Ideal) c (grid0.coords t) (ms0_0 t) (hs0_0 t) (ms0_1 t) (hs0_1 t) (ms0_2 t) (hs0_2 t) (ms0_3 t) (hs0_3 t)
      (xblk m c t) (wblk m c t) (bblk m c t) ((cfg0.win 3).xinj (grid0.coords t) j) = Garr m c (((cfg0.win 3).blk t).view.emb j)
  rw [ex, ee]
  exact point_eq m c t ⟨(j 0).val, hp⟩ ⟨(j 1).val, hq⟩ hr

/-- An index of the result array is in point t's block iff each coordinate is in the block's range. -/
theorem mem_blk (t : Fin cfg0.N) (i : S4096x4094.Idx) :
    i ∈ ((cfg0.win 3).blk t).view.set ↔ ∀ a : Fin 2, win0_3.index t a * S512x4094.size a ≤ (i a).val ∧ (i a).val < win0_3.index t a * S512x4094.size a + S512x4094.size a := by
  show i ∈ ((View.whole main_v12).slice (win0_3.rect t)).set ↔ _
  rw [View.set_slice_whole, Rect.mem_set_unit]
  exact Iff.rfl

/-- THE RESULT ARRAY after the run is the specification: row r lies in the block of point r / 512. -/
theorem final (c : Dev nD) : (dats m 0 c).arrAt 3 cfg0.N = Garr m c :=
  (dats m 0 c).arrAt_eq_of_cover 3 (Garr m c) (fun t _ => flushed_eq m c t) fun i => by
    have hN : cfg0.N = 8 := N_0
    have hi0 : (i 0).val < 4096 := (i 0).isLt
    have hi1 : (i 1).val < 4094 := (i 1).isLt
    have htl : (i 0).val / 512 < cfg0.N := by rw [hN]; omega
    obtain ⟨-, -, -, -, -, -, e0, e1⟩ := idx_facts ⟨(i 0).val / 512, htl⟩
    refine ⟨⟨(i 0).val / 512, htl⟩, flush0_3 _, ?_⟩
    rw [mem_blk]
    intro a
    match a with
    | ⟨0, _⟩ =>
      show win0_3.index ⟨(i 0).val / 512, htl⟩ (0 : Fin 2) * 512 ≤ (i 0).val ∧ (i 0).val < win0_3.index ⟨(i 0).val / 512, htl⟩ (0 : Fin 2) * 512 + 512
      rw [e0]
      show (i 0).val / 512 * 512 ≤ (i 0).val ∧ (i 0).val < (i 0).val / 512 * 512 + 512
      omega
    | ⟨1, _⟩ =>
      show win0_3.index ⟨(i 0).val / 512, htl⟩ (1 : Fin 2) * 4094 ≤ (i 1).val ∧ (i 1).val < win0_3.index ⟨(i 0).val / 512, htl⟩ (1 : Fin 2) * 4094 + 4094
      rw [e1]
      omega

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v12) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrValue

end
-- ==== Proof.RefValue.lean ====
/-
  The reference's result is the specification.

  The reference computes the [4096, 3] slab x · w[0:3]ᵀ + 4096 · b[0:3] and writes it over the
  leading three columns of a zero array of shape [4096, 4094]. Read at an index (r, j): for j < 3
  the overwriting scatter returns the slab's entry, whose dot product is the sum over k of
  x (r, k) · w (j, k) (the transposed slice of w read back at (j, k)) and whose bias term is the
  word 4096.0 times b j; for j ≥ 3 it returns the zero the array was filled with.
-/
import proofs.«145445_j60662118089241_1_alg».proof.Proof.Gen.ReferenceIdeal.Read
import proofs.«145445_j60662118089241_1_alg».proof.Proof.LibHostScatterWin
import proofs.«145445_j60662118089241_1_alg».proof.Proof.Spec

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read

/-- The scatter's one start index is the word 0. -/
theorem start_zero (k : S1.Idx) : (val_main_v10 (F := Ideal) k).toInt = 0 := by
  rw [val_main_v10_apply, val_main_c_apply]
  rfl

/-- The reference's last stage, index by index, is the specification. -/
theorem stage_eq_G (x0 : (⟨S4096x4096, .f32⟩ : BufTy).Contents (Elt Ideal))
    (x1 : (⟨S4094x4096, .f32⟩ : BufTy).Contents (Elt Ideal)) (x2 : (⟨S4094, .f32⟩ : BufTy).Contents (Elt Ideal)) :
    val_main_v11 (F := Ideal) x0 x1 x2 = Cert.Spec.G x0 x1 x2 := by
  funext i
  obtain ⟨r, j, rfl⟩ : ∃ (r : Fin 4096) (j : Fin 4094), i = ix2 r j := ⟨i 0, i 1, eq_ix2 i⟩
  unfold val_main_v11
  rw [Cert.Lib.scatter_set_cols2 scatter_S4096x4094_S1_S4096x3_01_n_1_0 rfl rfl rfl rfl _ _ start_zero _ (by decide) r j]
  by_cases h : j.val < 3
  · rw [dif_pos h, Cert.Spec.G_head _ _ _ r j h]
    have e0 : ∀ k : Fin 4096, lidx_main_v2 (ix2 r (⟨j.val, h⟩ : Fin 3)) k = ix2 r k := fun k =>
      funext fun a => Fin.ext (by match a with | ⟨0, _⟩ => rfl | ⟨1, _⟩ => rfl)
    have e1 : ∀ k : Fin 4096, idx_main_v0 (idx_main_v1 (ridx_main_v2 (ix2 r (⟨j.val, h⟩ : Fin 3)) k)) = ix2 j k := fun k =>
      funext fun a => Fin.ext (by match a with | ⟨0, _⟩ => rfl | ⟨1, _⟩ => rfl)
    have e2 : idx_main_v3 (idx_main_v6 (idx_main_v7 (ix2 r (⟨j.val, h⟩ : Fin 3)))) = ix1 j :=
      funext fun a => Fin.ext (by match a with | ⟨0, _⟩ => rfl)
    rw [val_main_v8_apply, val_main_v2_apply, val_main_v7_apply, val_main_v6_apply, val_main_v5_apply,
      val_main_v4_apply, val_main_cst_apply, val_main_v3_apply, e2]
    unfold Cert.Spec.slab
    simp only [val_main_v1_apply, val_main_v0_apply, e0, e1, Ideal.addf_def, Ideal.mulf_def, Ideal.ofBits_def]
  · rw [dif_neg h, Cert.Spec.G_tail _ _ _ r j h, val_main_v9_apply, val_main_cst_0_apply]
    exact Ideal.ofBits_zero_f32

end Cert.ReferenceIdeal.RefValue

end
-- ==== Proof.lean ====
/-
  The certificate's claims for the dense layer whose loop never advances its output slice.

  The reference accumulates, for every column n of x, the outer product of that column with column
  n of w[0:3] plus b[0:3] into the same three output columns: in all x · w[0:3]ᵀ + 4096 · b[0:3] in
  columns 0, 1, 2 of a zero array. The kernel pads w[0:3] with zero rows to 128 rows and 4096 · b[0:3]
  with zeros to 128 entries, and for each block of 512 rows of x writes the [512, 128] product plus
  the padded bias into columns 0 to 127 and zeros into the rest. Both results are one function of
  the arguments (Spec): in columns 3 to 127 the kernel adds products with zero to zero, which is
  zero on the extended reals for every other factor, so no finiteness of the inputs is used.

  The three frames are the generated ones (the reference's from its generated run); the ideal pass
  rewrote nothing, so the preservation claim is trivial; the algebraic claim sets the kernel's run,
  whose result array is the specification (KernelValue), beside the reference's run, whose result
  is the specification too (RefValue), at arguments that agree.
-/
import proofs.«145445_j60662118089241_1_alg».proof.Defs
import proofs.«145445_j60662118089241_1_alg».proof.Proof.Gen.Kernel
import proofs.«145445_j60662118089241_1_alg».proof.Proof.Gen.Kernel.Skeleton
import proofs.«145445_j60662118089241_1_alg».proof.Proof.Gen.Kernel.Launch
import proofs.«145445_j60662118089241_1_alg».proof.Proof.Gen.Kernel.Points
import proofs.«145445_j60662118089241_1_alg».proof.Proof.Gen.Kernel.Frame
import proofs.«145445_j60662118089241_1_alg».proof.Proof.Gen.KernelIdeal
import proofs.«145445_j60662118089241_1_alg».proof.Proof.Gen.KernelIdeal.Skeleton
import proofs.«145445_j60662118089241_1_alg».proof.Proof.Gen.KernelIdeal.Launch
import proofs.«145445_j60662118089241_1_alg».proof.Proof.Gen.KernelIdeal.Points
import proofs.«145445_j60662118089241_1_alg».proof.Proof.Gen.KernelIdeal.Frame
import proofs.«145445_j60662118089241_1_alg».proof.Proof.Gen.ReferenceIdeal
import proofs.«145445_j60662118089241_1_alg».proof.Proof.Gen.Pre_finite_inputs
import proofs.«145445_j60662118089241_1_alg».proof.Proof.Gen.KernelIdeal.Value
import proofs.«145445_j60662118089241_1_alg».proof.Proof.Gen.ReferenceIdeal.Run
import proofs.«145445_j60662118089241_1_alg».proof.Proof.Gen.ReferenceIdeal.Read
import proofs.«145445_j60662118089241_1_alg».proof.Proof.KernelValue
import proofs.«145445_j60662118089241_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the specification of the arguments, and the arguments agree. -/
theorem algebraic : Cert.algebraic_KernelIdeal_ReferenceIdeal := by
  intro m ρ m' ρ' _ hagree
  refine ⟨fun c => Cert.KernelIdeal.ArrValue.Garr m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.stage_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
